-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each of the body's three control cases leaves behind, as the body's store payloads.

  The body runs in one of three cases, by the position along the contraction axis of the grid. At the first stretch it
  resets the accumulator to zero and then adds this stretch's block product to what it reads back, so the accumulator
  ends at the update of the zero block. At a middle stretch it adds the block product to what the point before left.
  At the last stretch it does the same and then also stores the accumulator plus the bias row into the output block.
  Every load and store is of a whole buffer, so what a buffer ends with is the last covering store's payload, and a
  value loaded after a store of the same run is that store's payload.
-/
import proofs.«151990_j48421461295490_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle stretch leaves the accumulator at the update of what the point before left. -/
theorem sout_B (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S1024x512 .i32) (x2 : Vec F S1024x1 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S1024x512) hz, View.ld_unit_zero (S := S1024x1) hz, View.ld_unit_zero (S := S1x1024) hz, View.ld_unit_zero (S := S1024x1024) hz]

/-- The first stretch leaves the accumulator at the update of the zero block it has just stored and read back. -/
theorem sout_A (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S1024x512 .i32) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 x0 x1 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg8.read_unread, View.ld_unit_zero (S := S1024x512) hz, View.ld_unit_zero (S := S1024x1) hz, View.ld_unit_zero (S := S1x1024) hz, View.ld_unit_zero (S := S1024x1024) hz]

/-- The last stretch leaves the accumulator at the update of what the point before left … -/
theorem sout_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1024x1 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x512) hz, View.ld_unit_zero (S := S1024x1) hz, View.ld_unit_zero (S := S1x1024) hz, View.ld_unit_zero (S := S1024x1024) hz]

/-- … and the output block at that accumulator plus the bias row. -/
theorem out_C (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S1024x512 .i32) (x2 : Vec F S1024x1 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S1024x512) hz, View.ld_unit_zero (S := S1024x1) hz, View.ld_unit_zero (S := S1x1024) hz, View.ld_unit_zero (S := S1024x1024) hz, View.readCov_unit_zero (S := S1024x1024) _ hz]

end Cert.KernelIdeal.Pieces

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.Payload.lean ====
/-
  What the kernel body's three stores write, read at one entry, on the extended reals.

  The body keeps a 1024 × 1024 accumulator. Its first store (at the first stretch of the contraction axis only) writes
  zero everywhere. Its second store writes, at `(p, q)`, the accumulator's entry plus the product of the activation
  block's row `p` with the dequantized weight block's row `q`, over the block's 512 contraction positions; the
  dequantized weight at `(q, kk)` is the integer weight read signed times the scale of row `q` (a column of height
  1024 repeated along the row). Its third store (at the last stretch only) writes the accumulator plus the bias row,
  repeated down the rows. Changes of float format are the identity on the extended reals.
-/
import proofs.«151990_j48421461295490_1_alg».proof.Proof.Gen.KernelIdeal.Skeleton
import proofs.«151990_j48421461295490_1_alg».proof.Proof.LibRowRowMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- A column `[a, 1]` repeated along the second axis to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset writes zero at every entry. -/
theorem pay1_apply (j : S1024x1024.Idx) : k0_pay1 (F := Ideal) j = 0 := by
  unfold k0_pay1
  rw [shapeCast_self]
  exact Ideal.ofBits_zero_f32

/-- The update writes the accumulator's entry plus the block product's entry. -/
theorem pay2_apply (x : Vec Ideal S1024x512 .f32) (wq : Vec Ideal S1024x512 .i32) (ws : Vec Ideal S1024x1 .f32)
    (acc : Vec Ideal S1024x1024 .f32) (p q : Fin 1024) :
    k0_pay2 (F := Ideal) x wq ws acc (ix2 p q)
      = acc (ix2 p q) + ∑ kk : Fin 512, x (ix2 p kk) * ((((wq (ix2 q kk)).toInt : ℝ) : EReal) * ws (ix2 q (0 : Fin 1))) := by
  unfold k0_pay2
  rw [shapeCast_self, shapeCast_self]
  rw [addf_apply]
  refine congrArg (acc (ix2 p q) + ·) ?_
  refine (Cert.RowRowMatmul.matmul_zero_apply dot_S1024x512_S1024x512_S1024x1024_1_1_0_0_n_n rfl rfl rfl rfl rfl rfl none _ _ p q).trans ?_
  refine Finset.sum_congr rfl fun kk _ => ?_
  rw [truncf_apply, truncf_apply, mulf_apply, sitofp_apply, broadcastTo_a1_ab_apply]
  rfl

/-- The final store writes the accumulator's entry plus the bias of the entry's column. -/
theorem pay3_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self, addf_apply, broadcastTo_1b_ab_apply]

end Cert.KernelIdeal.Pay

end
-- ==== Proof.Spec.lean ====
/-
  The arithmetic both programs compute, and the one law that joins them.

  Both programs multiply an activation matrix by a weight matrix that is dequantized on the fly: the integer weight
  `wq[n, k]`, read signed as a real number, times the row scale `ws[n, 0]`; the entry of the product at row `r`,
  column `n` is `Σ_k x[r, k] · (wq[n, k] · ws[n, 0])` over the 4096 contraction positions, and a bias `b[n]` is added.
  One program takes the sum in one piece. The other cuts the contraction axis into 8 stretches of 512 positions,
  sums each stretch, and adds the stretch sums one after the other onto zero. On the extended reals addition is
  commutative and associative (no finiteness is needed), so the two agree: `sum_range_stretches`.
-/
import Idealize.ShloMosaic.PureOps.Ideal
import Idealize.ShloMosaic.Lib.ValueIdx

noncomputable section

namespace Cert.BitLinear

open Idealize.ShloMosaic Idealize.ShloMosaic.ValueIdx
open scoped BigOperators

/-- Position `kk` of stretch `kb` of the contraction axis: `kb · 512 + kk` (the stretch number taken mod 8, so that
    the position is in range for every natural `kb`). -/
def kpos (kb : ℕ) (kk : Fin 512) : Fin 4096 := ⟨kb % 8 * 512 + kk.val, by have := kk.isLt; have := Nat.mod_lt kb (by decide : 8 > 0); omega⟩

/-- Only the stretch number mod 8 matters. -/
theorem kpos_mod (kb : ℕ) (kk : Fin 512) : kpos (kb % 8) kk = kpos kb kk :=
  Fin.ext (by show kb % 8 % 8 * 512 + kk.val = kb % 8 * 512 + kk.val; rw [Nat.mod_mod])

/-- The dequantized weight at row `n`, position `k`: the integer read signed, times the row's scale. -/
def wdeq (wq : IVec ⟨2, ![4096, 4096]⟩ 32) (ws : FVec Ideal ⟨2, ![4096, 1]⟩ .f32) (n k : Fin 4096) : EReal :=
  (((wq (ix2 n k)).toInt : ℝ) : EReal) * ws (ix2 n 0)

/-- One term of the product's entry at row `r`, column `n`. -/
def term (x : FVec Ideal ⟨2, ![8192, 4096]⟩ .f32) (wq : IVec ⟨2, ![4096, 4096]⟩ 32) (ws : FVec Ideal ⟨2, ![4096, 1]⟩ .f32)
    (r : Fin 8192) (n k : Fin 4096) : EReal := x (ix2 r k) * wdeq wq ws n k

/-- The sum of the terms of stretch `kb`. -/
def stretch (x : FVec Ideal ⟨2, ![8192, 4096]⟩ .f32) (wq : IVec ⟨2, ![4096, 4096]⟩ 32) (ws : FVec Ideal ⟨2, ![4096, 1]⟩ .f32)
    (r : Fin 8192) (n : Fin 4096) (kb : ℕ) : EReal := ∑ kk : Fin 512, term x wq ws r n (kpos kb kk)

/-- A sum over the 4096 positions is the sum over the 8 stretches of the sums over each stretch's 512 positions. -/
theorem sum_stretches {M : Type*} [AddCommMonoid M] (f : Fin 4096 → M) :
    ∑ k : Fin 4096, f k = ∑ kb ∈ Finset.range 8, ∑ kk : Fin 512, f (kpos kb kk) := by
  rw [← Fin.sum_univ_eq_sum_range (fun kb => ∑ kk : Fin 512, f (kpos kb kk)) 8]
  rw [← Equiv.sum_comp (finProdFinEquiv (m := 8) (n := 512)) f, Fintype.sum_prod_type]
  refine Finset.sum_congr rfl fun kb _ => Finset.sum_congr rfl fun kk _ => congrArg f (Fin.ext ?_)
  show kk.val + 512 * kb.val = kb.val % 8 * 512 + kk.val
  rw [Nat.mod_eq_of_lt kb.isLt]; omega

/-- The product's entry as the 8 stretch sums added up. -/
theorem sum_range_stretches (x : FVec Ideal ⟨2, ![8192, 4096]⟩ .f32) (wq : IVec ⟨2, ![4096, 4096]⟩ 32)
    (ws : FVec Ideal ⟨2, ![4096, 1]⟩ .f32) (r : Fin 8192) (n : Fin 4096) :
    ∑ kb ∈ Finset.range 8, stretch x wq ws r n kb = ∑ k : Fin 4096, term x wq ws r n k :=
  (sum_stretches (term x wq ws r n)).symm

/-- The result both programs compute, on the two-axis view (row `r` = batch · 2048 + sequence position). -/
def out2 (x : FVec Ideal ⟨2, ![8192, 4096]⟩ .f32) (wq : IVec ⟨2, ![4096, 4096]⟩ 32) (ws : FVec Ideal ⟨2, ![4096, 1]⟩ .f32)
    (b : FVec Ideal ⟨2, ![1, 4096]⟩ .f32) : FVec Ideal ⟨2, ![8192, 4096]⟩ .f32 :=
  fun j => (∑ k : Fin 4096, term x wq ws (j 0) (j 1) k) + b (ix2 0 (j 1))

end Cert.BitLinear

end
-- ==== Proof.Blocks.lean ====
/-
  Which entries of the arrays a grid point's blocks hold.

  The grid is 8 × 4 × 8: row blocks of the activations, row blocks of the weights, stretches of the contraction axis,
  the last axis fastest. Point `n` has row block `n / 32`, weight block `n / 8 mod 4` and stretch `n mod 8`. Entry
  `(p, kk)` of its activation block is entry `(row block · 1024 + p, stretch · 512 + kk)` of the activation array; entry
  `(q, kk)` of its weight block is entry `(weight block · 1024 + q, stretch · 512 + kk)` of the weight array; its scale
  column and its bias row are the weight block's 1024 scales and biases.
-/
import proofs.«151990_j48421461295490_1_alg».proof.Proof.Gen.KernelIdeal.Frame
import proofs.«151990_j48421461295490_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.BitLinear

variable {F : FTy → Type} [FloatOps F]
variable (m : (ℓ : Loc nD τ sig) → Buf (Elt F) ℓ)

/-- Row `p` of point `n`'s row block, as a row of the activation array. -/
def rowAt (n : ℕ) (p : Fin 1024) : Fin 8192 := ⟨n / 32 % 8 * 1024 + p.val, by have := p.isLt; have := Nat.mod_lt (n / 32) (by decide : 8 > 0); omega⟩
/-- Row `q` of point `n`'s weight block, as a row of the weight array (a column of the result). -/
def colAt (n : ℕ) (q : Fin 1024) : Fin 4096 := ⟨n / 8 % 4 * 1024 + q.val, by have := q.isLt; have := Nat.mod_lt (n / 8) (by decide : 4 > 0); omega⟩

/-- The arrays as the region finds them, and a point's blocks of them, at their literal types. -/
abbrev xarr (c : Dev nD) : Vec F S8192x4096 .f32 := V m c main_v0
abbrev warr (c : Dev nD) : Vec F S4096x4096 .i32 := V m c main_arg1
abbrev sarr (c : Dev nD) : Vec F S4096x1 .f32 := V m c main_arg2
abbrev barr (c : Dev nD) : Vec F S1x4096 .f32 := V m c main_v1
abbrev xblk (c : Dev nD) (t : Fin cfg0.N) : Vec F S1024x512 .f32 := iblk m c 0 t
abbrev wblk (c : Dev nD) (t : Fin cfg0.N) : Vec F S1024x512 .i32 := iblk m c 1 t
abbrev sblk (c : Dev nD) (t : Fin cfg0.N) : Vec F S1024x1 .f32 := iblk m c 2 t
abbrev bblk (c : Dev nD) (t : Fin cfg0.N) : Vec F S1x1024 .f32 := iblk m c 3 t

/-- The block indices of the five windows at each point, decided over the grid. -/
theorem idx_facts : ∀ t : Fin cfg0.N,
    win0_0.index t (0 : Fin 2) = t.val / 32 % 8 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = 0 ∧ win0_3.index t (1 : Fin 2) = t.val / 8 % 4
    ∧ win0_4.index t (0 : Fin 2) = t.val / 32 % 8 ∧ win0_4.index t (1 : Fin 2) = t.val / 8 % 4 :=
  (by decide +kernel : ∀ t : Fin grid0.N, _)

/-- An entry of a point's activation block. -/
theorem xblk_apply (c : Dev nD) (t : Fin cfg0.N) (p : Fin 1024) (kk : Fin 512) :
    xblk m c t (ix2 p kk) = xarr m c (ix2 (rowAt t.val p) (kpos t.val kk)) := by
  obtain ⟨e0, e1, -⟩ := idx_facts t
  show V m c main_v0 (((cfg0.win 0).blk t).view.emb (ix2 p kk)) = V m c main_v0 (ix2 (rowAt t.val p) (kpos t.val kk))
  refine congrArg (V m c main_v0) (funext fun a => Fin.ext ?_)
  match a with
  | ⟨0, _⟩ => show win0_0.index t (0 : Fin 2) * 1024 + 1 * p.val = t.val / 32 % 8 * 1024 + p.val; rw [e0]; omega
  | ⟨1, _⟩ => show win0_0.index t (1 : Fin 2) * 512 + 1 * kk.val = t.val % 8 * 512 + kk.val; rw [e1]; omega

/-- An entry of a point's weight block. -/
theorem wblk_apply (c : Dev nD) (t : Fin cfg0.N) (q : Fin 1024) (kk : Fin 512) :
    wblk m c t (ix2 q kk) = warr m c (ix2 (colAt t.val q) (kpos t.val kk)) := by
  obtain ⟨-, -, e0, e1, -⟩ := idx_facts t
  show V m c main_arg1 (((cfg0.win 1).blk t).view.emb (ix2 q kk)) = V m c main_arg1 (ix2 (colAt t.val q) (kpos t.val kk))
  refine congrArg (V m c main_arg1) (funext fun a => Fin.ext ?_)
  match a with
  | ⟨0, _⟩ => show win0_1.index t (0 : Fin 2) * 1024 + 1 * q.val = t.val / 8 % 4 * 1024 + q.val; rw [e0]; omega
  | ⟨1, _⟩ => show win0_1.index t (1 : Fin 2) * 512 + 1 * kk.val = t.val % 8 * 512 + kk.val; rw [e1]; omega

/-- An entry of a point's scale column. -/
theorem sblk_apply (c : Dev nD) (t : Fin cfg0.N) (q : Fin 1024) :
    sblk m c t (ix2 q (0 : Fin 1)) = sarr m c (ix2 (colAt t.val q) (0 : Fin 1)) := by
  obtain ⟨-, -, -, -, e0, e1, -⟩ := idx_facts t
  show V m c main_arg2 (((cfg0.win 2).blk t).view.emb (ix2 q (0 : Fin 1))) = V m c main_arg2 (ix2 (colAt t.val q) (0 : Fin 1))
  refine congrArg (V m c main_arg2) (funext fun a => Fin.ext ?_)
  match a with
  | ⟨0, _⟩ => show win0_2.index t (0 : Fin 2) * 1024 + 1 * q.val = t.val / 8 % 4 * 1024 + q.val; rw [e0]; omega
  | ⟨1, _⟩ => show win0_2.index t (1 : Fin 2) * 1 + 1 * 0 = 0; rw [e1]

/-- An entry of a point's bias row. -/
theorem bblk_apply (c : Dev nD) (t : Fin cfg0.N) (q : Fin 1024) :
    bblk m c t (ix2 (0 : Fin 1) q) = barr m c (ix2 (0 : Fin 1) (colAt t.val q)) := by
  obtain ⟨-, -, -, -, -, -, e0, e1, -⟩ := idx_facts t
  show V m c main_v1 (((cfg0.win 3).blk t).view.emb (ix2 (0 : Fin 1) q)) = V m c main_v1 (ix2 (0 : Fin 1) (colAt t.val q))
  refine congrArg (V m c main_v1) (funext fun a => Fin.ext ?_)
  match a with
  | ⟨0, _⟩ => show win0_3.index t (0 : Fin 2) * 1 + 1 * 0 = 0; rw [e0]
  | ⟨1, _⟩ => show win0_3.index t (1 : Fin 2) * 1024 + 1 * q.val = t.val / 8 % 4 * 1024 + q.val; rw [e1]; omega

end Cert.KernelIdeal.Blocks

end
-- ==== Proof.Invariant.lean ====
/-
  The accumulator after each grid point.

  Along the contraction axis of the grid the accumulator is reset at stretch 0 and then gains one stretch's block
  product per point, so after the point at stretch `k` of a (row block, weight block) pair its entry `(p, q)` is the sum
  of the stretch sums `0 … k` of the product's entry at (that row, that column). By induction on the point: a point that
  is not at stretch 0 has the same row block and weight block as the point before it, and the next stretch.
-/
import proofs.«151990_j48421461295490_1_alg».proof.Proof.Pieces
import proofs.«151990_j48421461295490_1_alg».proof.Proof.Payload
import proofs.«151990_j48421461295490_1_alg».proof.Proof.Blocks

noncomputable section

namespace Cert.KernelIdeal.Acc

open Cert.KernelIdeal Cert.KernelIdeal.Gen Idealize.ShloMosaic Idealize.ShloMosaic.TcCoe Idealize.SL.Sem
open Idealize.ShloMosaic.ValueIdx Cert.BitLinear Cert.KernelIdeal.Blocks Cert.KernelIdeal.Pieces Cert.KernelIdeal.Pay
open scoped BigOperators

variable (m : (ℓ : Loc nD τ sig) → Buf (Elt Ideal) ℓ)

/-- The block product a point adds, at entry `(p, q)`, is the point's stretch of the product's entry at the point's
    row and column. -/
theorem blockprod (c : Dev nD) (t : Fin cfg0.N) (p q : Fin 1024) :
    ∑ kk : Fin 512, xblk m c t (ix2 p kk) * ((((wblk m c t (ix2 q kk)).toInt : ℝ) : EReal) * sblk m c t (ix2 q (0 : Fin 1)))
      = stretch (xarr m c) (warr m c) (sarr m c) (rowAt t.val p) (colAt t.val q) (t.val % 8) := by
  unfold stretch term wdeq
  refine Finset.sum_congr rfl fun kk _ => ?_
  rw [xblk_apply, wblk_apply, sblk_apply, kpos_mod]

/-- At stretch 0 the accumulator ends at the point's block product. -/
theorem scratch_first (c : Dev nD) (t : Fin cfg0.N) (h0 : t.val % 8 = 0) (p q : Fin 1024) :
    (outsAt0 m c t.val t.isLt).2 (ix2 p q)
      = stretch (xarr m c) (warr m c) (sarr m c) (rowAt t.val p) (colAt t.val q) (t.val % 8) := by
  have h1 : ¬t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xblk m c t) (wblk m c t) (sblk m c t) (bblk m c t)) (ix2 p q)).trans ?_
  refine (pay2_apply (xblk m c t) (wblk m c t) (sblk m c t) (k0_pay1 (F := Ideal)) p q).trans ?_
  rw [pay1_apply, zero_add]
  exact blockprod m c t p q

/-- At a later stretch it gains the point's block product over what the point before left. -/
theorem scratch_next (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + stretch (xarr m c) (warr m c) (sarr m c) (rowAt t.val p) (colAt t.val q) (t.val % 8) := by
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (sblk m c t) (bblk m c t) (outsAt0 m c (t.val - 1) (Nat.lt_of_le_of_lt (Nat.sub_le _ _) t.isLt)).2) (ix2 p q)).trans ?_
    refine (pay2_apply (xblk m c t) (wblk m c t) (sblk m c t) _ p q).trans ?_
    rw [blockprod m c t p q]
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (wblk m c t) (sblk m c t) (bblk m c t) (outsAt0 m c (t.val - 1) (Nat.lt_of_le_of_lt (Nat.sub_le _ _) t.isLt)).2) (ix2 p q)).trans ?_
    refine (pay2_apply (xblk m c t) (wblk m c t) (sblk m c t) _ p q).trans ?_
    rw [blockprod m c t p q]

/-- THE ACCUMULATOR after point `n`: the stretch sums `0 … n mod 8` of the product's entry at the point's row and column. -/
theorem scratch_eq (c : Dev nD) : ∀ (n : ℕ) (h : n < cfg0.N) (p q : Fin 1024),
    (outsAt0 m c n h).2 (ix2 p q)
      = ∑ kb ∈ Finset.range (n % 8 + 1), stretch (xarr m c) (warr m c) (sarr m c) (rowAt n p) (colAt n q) kb
  | 0, h, p, q => by
    rw [show (0 % 8 + 1) = 1 from rfl, Finset.sum_range_one]
    exact scratch_first m c ⟨0, h⟩ rfl p q
  | n + 1, h, p, q => by
    by_cases h0 : (n + 1) % 8 = 0
    · rw [h0, Nat.zero_add, Finset.sum_range_one]
      exact (scratch_first m c ⟨n + 1, h⟩ h0 p q).trans (by rw [show (⟨n + 1, h⟩ : Fin cfg0.N).val % 8 = 0 from h0])
    · have e : (n + 1) % 8 = n % 8 + 1 := by omega
      have er : rowAt n p = rowAt (n + 1) p :=
        Fin.ext (by show n / 32 % 8 * 1024 + p.val = (n + 1) / 32 % 8 * 1024 + p.val; omega)
      have ec : colAt n q = colAt (n + 1) q :=
        Fin.ext (by show n / 8 % 4 * 1024 + q.val = (n + 1) / 8 % 4 * 1024 + q.val; omega)
      rw [scratch_next m c ⟨n + 1, h⟩ h0 p q]
      show (outsAt0 m c n _).2 (ix2 p q) + stretch _ _ _ _ _ ((n + 1) % 8) = _
      rw [scratch_eq c n _ p q, er, ec, e]
      exact (Finset.sum_range_succ _ _).symm

end Cert.KernelIdeal.Acc

end
-- ==== Proof.Final.lean ====
/-
  The result array of the region after the run.

  The output block of a (row block, weight block) pair is written back once, at the pair's last stretch, where the body
  stores the accumulator — by then all 8 stretch sums, which is the whole sum over the 4096 contraction positions —
  plus the bias row. So what is written back is that block of ONE function of the arrays, the product plus bias, and
  the 32 written blocks (8 row blocks × 4 weight blocks) tile the 8192 × 4096 array: it ends holding that function.
-/
import proofs.«151990_j48421461295490_1_alg».proof.Proof.Invariant

noncomputable section

namespace Cert.KernelIdeal.Final

open Cert.KernelIdeal Cert.KernelIdeal.Gen Idealize.ShloMosaic Idealize.ShloMosaic.TcCoe Idealize.SL.Sem
open Idealize.ShloMosaic.ValueIdx Cert.BitLinear Cert.KernelIdeal.Blocks Cert.KernelIdeal.Pieces Cert.KernelIdeal.Pay
open Cert.KernelIdeal.Acc
open scoped BigOperators

variable (m : (ℓ : Loc nD τ sig) → Buf (Elt Ideal) ℓ)

/-- The product plus bias, of the arrays as the region finds them. -/
abbrev result (c : Dev nD) : Vec Ideal S8192x4096 .f32 := out2 (xarr m c) (warr m c) (sarr m c) (barr m c)

/-- At a last stretch the output block is the accumulator plus the bias row. -/
theorem out_last (c : Dev nD) (t : Fin cfg0.N) (h1 : t.val % 8 = 7) (p q : Fin 1024) :
    (outsAt0 m c t.val t.isLt).1 (ix2 p q) = (outsAt0 m c t.val t.isLt).2 (ix2 p q) + bblk m c t (ix2 (0 : Fin 1) q) := by
  have h0 : ¬t.val % 8 = 0 := by omega
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (sblk m c t) (bblk m c t) (outsAt0 m c (t.val - 1) (Nat.lt_of_le_of_lt (Nat.sub_le _ _) t.isLt)).2) (ix2 p q)).trans ?_
  refine (pay3_apply _ (bblk m c t) p q).trans ?_
  refine congrArg (· + bblk m c t (ix2 (0 : Fin 1) q)) ?_
  exact (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (wblk m c t) (sblk m c t) (bblk m c t) (outsAt0 m c (t.val - 1) (Nat.lt_of_le_of_lt (Nat.sub_le _ _) t.isLt)).2) (ix2 p q)).symm

/-- So there it holds, at `(p, q)`, the product plus bias at the point's row and column. -/
theorem out_last_eq (c : Dev nD) (t : Fin cfg0.N) (h1 : t.val % 8 = 7) (p q : Fin 1024) :
    (outsAt0 m c t.val t.isLt).1 (ix2 p q) = result m c (ix2 (rowAt t.val p) (colAt t.val q)) := by
  rw [out_last m c t h1 p q, scratch_eq m c t.val t.isLt p q, bblk_apply, h1]
  show ∑ kb ∈ Finset.range 8, stretch _ _ _ _ _ kb + _ = (∑ k : Fin 4096, term _ _ _ (rowAt t.val p) (colAt t.val q) k) + _
  rw [sum_range_stretches]

/-- Where entry `y` of point `t`'s output block sits in the array. -/
theorem emb_out (t : Fin cfg0.N) (y : S1024x1024.Idx) :
    ((cfg0.win 4).blk t).view.emb y = ix2 (rowAt t.val (y 0)) (colAt t.val (y 1)) := by
  obtain ⟨-, -, -, -, -, -, -, -, e0, e1⟩ := idx_facts t
  funext a; apply Fin.ext
  match a with
  | ⟨0, _⟩ => show win0_4.index t (0 : Fin 2) * 1024 + 1 * (y 0).val = t.val / 32 % 8 * 1024 + (y 0).val; rw [e0]; omega
  | ⟨1, _⟩ => show win0_4.index t (1 : Fin 2) * 1024 + 1 * (y 1).val = t.val / 8 % 4 * 1024 + (y 1).val; rw [e1]; omega

/-- WHAT A WRITING POINT WRITES BACK is its block of the product plus bias. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  show (cfg0.win 4).cut (grid0.coords t) ((dats m 0 c).after 4 t) = _
  rw [after0_4]
  funext j
  show (outsAt0 m c t.val t.isLt).1 j = result m c (((cfg0.win 4).blk t).view.emb j)
  rw [emb_out t j]
  exact (congrArg (outsAt0 m c t.val t.isLt).1 (eq_ix2 j)).trans (out_last_eq m c t h1 (j 0) (j 1))

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v2).slice (win0_4.rect t)).set ↔ _
  rw [View.set_slice_whole, Rect.mem_set_unit]
  exact Iff.rfl

/-- Every entry of the array is in the block some last-stretch point writes back. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  let t : Fin cfg0.N := ⟨(i 0).val / 1024 * 32 + (i 1).val / 1024 * 8 + 7, by omega⟩
  have ht : t.val = (i 0).val / 1024 * 32 + (i 1).val / 1024 * 8 + 7 := rfl
  obtain ⟨-, -, -, -, -, -, -, -, e0, e1⟩ := idx_facts t
  refine ⟨t, (flush0_4 t).mpr (by omega), ?_⟩
  rw [mem_blk]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1024 ≤ (i 1).val ∧ (i 1).val < win0_4.index t (1 : Fin 2) * 1024 + 1024; rw [e1]; omega

/-- THE RESULT ARRAY after the run: the product plus bias. -/
theorem final (c : Dev nD) : (dats m 0 c).arrAt 4 cfg0.N = result m c :=
  (dats m 0 c).arrAt_eq_of_cover 4 (result m c) (flushed_eq m c) cover

end Cert.KernelIdeal.Final

end
-- ==== Proof.Reshape.lean ====
/-
  The two views of the arrays.

  One program works on a two-axis view: the activations `[4, 2048, 4096]` flattened to `[8192, 4096]` (row = batch · 2048
  + sequence position), the bias `[4096]` as one row `[1, 4096]`, and its `[8192, 4096]` result cast back to three
  axes. Cast back, the product plus bias of the flattened arrays is the product plus bias stated on the three-axis
  arrays themselves: entry `(b, s, n)` is `Σ_k x[b, s, k] · (wq[n, k] · ws[n, 0]) + bias[n]`.
-/
import proofs.«151990_j48421461295490_1_alg».proof.Proof.Spec
import Idealize.ShloMosaic.Lib.Pipeline.Value
import Idealize.ShloMosaic.Lib.ValueLayout

noncomputable section

namespace Cert.BitLinear

open Idealize.ShloMosaic Idealize.ShloMosaic.ValueIdx
open scoped BigOperators

/-- The result on the three-axis arrays. -/
def out3 (x : FVec Ideal ⟨3, ![4, 2048, 4096]⟩ .f32) (wq : IVec ⟨2, ![4096, 4096]⟩ 32) (ws : FVec Ideal ⟨2, ![4096, 1]⟩ .f32)
    (b : FVec Ideal ⟨1, ![4096]⟩ .f32) : FVec Ideal ⟨3, ![4, 2048, 4096]⟩ .f32 :=
  fun i => (∑ k : Fin 4096, x (ix3 (i 0) (i 1) k) * wdeq wq ws (i 2) k) + b (ix1 (i 2))

/-- The flattened row of batch `b`, sequence position `s`. -/
def row (b : Fin 4) (s : Fin 2048) : Fin 8192 := ⟨b.val * 2048 + s.val, by have := b.isLt; have := s.isLt; omega⟩

/-- The flattened activations at `(row b s, k)` are the activations at `(b, s, k)`. -/
theorem flat_apply {α : Type} (x : (⟨3, ![4, 2048, 4096]⟩ : Shape).Idx → α)
    (h : (⟨3, ![4, 2048, 4096]⟩ : Shape).ShapeCasts ⟨2, ![8192, 4096]⟩) (b : Fin 4) (s : Fin 2048) (k : Fin 4096) :
    shapeCast ⟨2, ![8192, 4096]⟩ x h (ix2 (row b s) k) = x (ix3 b s k) :=
  shapeCast_apply x h _ _ (by
    rw [Shape.rowMajor_val_two, Shape.rowMajor_val_three]
    rfl)

/-- The three-axis cast of a two-axis array at `(b, s, n)` is the array at `(row b s, n)`. -/
theorem unflat_apply {α : Type} (y : (⟨2, ![8192, 4096]⟩ : Shape).Idx → α)
    (h : (⟨2, ![8192, 4096]⟩ : Shape).ShapeCasts ⟨3, ![4, 2048, 4096]⟩) (b : Fin 4) (s : Fin 2048) (n : Fin 4096) :
    shapeCast ⟨3, ![4, 2048, 4096]⟩ y h (ix3 b s n) = y (ix2 (row b s) n) :=
  shapeCast_apply y h _ _ (by
    rw [Shape.rowMajor_val_two, Shape.rowMajor_val_three]
    rfl)

/-- THE TWO VIEWS AGREE: the two-axis result of the flattened arrays, cast back to three axes, is the three-axis result. -/
theorem unflat_out2 (x : FVec Ideal ⟨3, ![4, 2048, 4096]⟩ .f32) (wq : IVec ⟨2, ![4096, 4096]⟩ 32) (ws : FVec Ideal ⟨2, ![4096, 1]⟩ .f32)
    (b : FVec Ideal ⟨1, ![4096]⟩ .f32) (h1 : (⟨3, ![4, 2048, 4096]⟩ : Shape).ShapeCasts ⟨2, ![8192, 4096]⟩)
    (h2 : (⟨1, ![4096]⟩ : Shape).ShapeCasts ⟨2, ![1, 4096]⟩) (h3 : (⟨2, ![8192, 4096]⟩ : Shape).ShapeCasts ⟨3, ![4, 2048, 4096]⟩) :
    shapeCast ⟨3, ![4, 2048, 4096]⟩ (out2 (shapeCast ⟨2, ![8192, 4096]⟩ x h1) wq ws (shapeCast ⟨2, ![1, 4096]⟩ b h2)) h3
      = out3 x wq ws b := by
  funext i
  obtain ⟨bb, s, n, rfl⟩ : ∃ (bb : Fin 4) (s : Fin 2048) (n : Fin 4096), i = ix3 bb s n := ⟨i 0, i 1, i 2, eq_ix3 i⟩
  rw [unflat_apply]
  show (∑ k : Fin 4096, term _ wq ws (row bb s) n k) + shapeCast ⟨2, ![1, 4096]⟩ b h2 (ix2 (0 : Fin 1) n)
    = (∑ k : Fin 4096, x (ix3 bb s k) * wdeq wq ws n k) + b (ix1 n)
  rw [shapeCast_a_1a_apply]
  refine congrArg (· + b (ix1 n)) (Finset.sum_congr rfl fun k _ => ?_)
  unfold term
  rw [flat_apply]

end Cert.BitLinear

end
-- ==== Proof.KernelRun.lean ====
/-
  The idealized kernel's run, read as a value.

  Before the region the host flattens the activations to two axes and casts the bias to one row; the region leaves the
  product plus bias of those in its result array; after the region the host casts that array back to three axes. So
  the program's result is the product plus bias stated on the three-axis arguments, and the arguments end unchanged.
-/
import proofs.«151990_j48421461295490_1_alg».proof.Proof.Final
import proofs.«151990_j48421461295490_1_alg».proof.Proof.Reshape
import Idealize.ShloMosaic.Lib.StableHlo.Run

noncomputable section

namespace Cert.KernelIdeal.KernelRun

open Cert.KernelIdeal Cert.KernelIdeal.Gen Idealize.ShloMosaic Idealize.ShloMosaic.TcCoe Idealize.SL.Sem Idealize.ShloMosaic.StableHlo
open Idealize.ShloMosaic.ValueIdx Cert.BitLinear Cert.KernelIdeal.Blocks Cert.KernelIdeal.Final

variable (m : (ℓ : Loc nD τ sig) → Buf (Elt Ideal) ℓ) (ρ : Dev nD → PrngReg)

/-- The region finds the activations flattened … -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

/-- … the bias as one row … -/
theorem barr_eq (c : Dev nD) :
    barr m c = shapeCast S1x4096 (m ((c : Thread nD τ).loc main_arg3)) shapeCasts_S4096_S1x4096 := by
  show StableHlo.after hostOps0 (fun b => m (c, b)) (Proc.devRef .tc main_v1) = _
  after_results
  rfl

/-- … and the weights and scales as launched. -/
theorem warr_eq (c : Dev nD) : warr m c = m ((c : Thread nD τ).loc main_arg1) := V_main_arg1 m c
theorem sarr_eq (c : Dev nD) : sarr m c = m ((c : Thread nD τ).loc main_arg2) := V_main_arg2 m c

/-- The program's result: the region's result array cast back to three axes, which is the product plus bias on the
    three-axis arguments. -/
theorem tail_eq (c : Dev nD) :
    Pipeline.afterTail₀ cfgs (dats m) 0 (V0 m) [hostOps1] c main_v3
      = out3 (m ((c : Thread nD τ).loc main_arg0)) (m ((c : Thread nD τ).loc main_arg1)) (m ((c : Thread nD τ).loc main_arg2))
          (m ((c : Thread nD τ).loc main_arg3)) := by
  have hw : Pipeline.withArrays (cfgs 0).spec c (V0 m c) (fun w => (dats m 0 c).arrAt w (cfgs 0).N) (Proc.devRef .tc main_v2)
      = result m c := (Pipeline.withArrays_arr spec0 launch0.win.arr_inj c _ _ 4).trans (final m c)
  unfold Pipeline.afterTail₀
  show StableHlo.after hostOps1 _ (Proc.devRef .tc main_v3) = _
  after_results
  rw [hw]
  show shapeCast S4x2048x4096 (out2 (xarr m c) (warr m c) (sarr m c) (barr m c)) shapeCasts_S8192x4096_S4x2048x4096 = _
  rw [xarr_eq, barr_eq, warr_eq, sarr_eq]
  exact unflat_out2 _ _ _ _ _ _ _

/-- THE RUN: every weakly fair execution terminates with the result at the product plus bias of the arguments, and
    the arguments unchanged. -/
theorem run : θ_run defs (onTc (τ := τ) (main (F := Ideal))) ⟨m, fun _ => 0, ρ⟩ fun r => ∀ c : Dev nD,
      r.2.mem ((c.tc : Thread nD τ).loc main_v3)
        = out3 (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.KernelRun

end
-- ==== Proof.RefValue.lean ====
/-
  The idealized reference computes the product plus bias.

  It converts the integer weights to floats (each read signed, exactly), repeats the scale column along the rows and
  multiplies — the dequantized weight —, contracts the activations' last axis with the weights' last axis — at
  `(b, s, n)` the sum over `k` of `x[b, s, k] · w[n, k]` —, and adds the bias repeated over batch and sequence position.
-/
import proofs.«151990_j48421461295490_1_alg».proof.Proof.Gen.ReferenceIdeal.Read
import proofs.«151990_j48421461295490_1_alg».proof.Proof.Reshape

noncomputable section

namespace Cert.ReferenceIdeal.RefValue

open Cert.ReferenceIdeal Cert.ReferenceIdeal.Gen Cert.ReferenceIdeal.Read Idealize.ShloMosaic Idealize.ShloMosaic.ValueIdx Cert.BitLinear
open scoped BigOperators

/-- The contraction reads the activations at `(b, s, k)` … -/
theorem lidx_eq (i : S4x2048x4096.Idx) (k : Fin 4096) : lidx_main_v3 i k = ix3 (i 0) (i 1) k :=
  funext fun a => Fin.ext (by match a with | ⟨0, _⟩ => rfl | ⟨1, _⟩ => rfl | ⟨2, _⟩ => rfl)
/-- … and the weights at `(n, k)`; -/
theorem ridx_eq (i : S4x2048x4096.Idx) (k : Fin 4096) : ridx_main_v3 i k = ix2 (i 2) k :=
  funext fun a => Fin.ext (by match a with | ⟨0, _⟩ => rfl | ⟨1, _⟩ => rfl)
/-- the repeated scale column is read at its row; -/
theorem sidx_eq (n k : Fin 4096) : idx_main_v1 (ix2 n k) = ix2 n (0 : Fin 1) :=
  funext fun a => Fin.ext (by match a with | ⟨0, _⟩ => rfl | ⟨1, _⟩ => rfl)
/-- the repeated bias at its last coordinate. -/
theorem bidx_eq (i : S4x2048x4096.Idx) : idx_main_v4 (idx_main_v5 i) = ix1 (i 2) :=
  funext fun a => Fin.ext (by match a with | ⟨0, _⟩ => rfl)

/-- The dequantized weight, as the reference computes it. -/
theorem deq_apply (x1 : (⟨S4096x4096, .i32⟩ : BufTy).Contents (Elt Ideal)) (x2 : (⟨S4096x1, .f32⟩ : BufTy).Contents (Elt Ideal))
    (n k : Fin 4096) : val_main_v2 (F := Ideal) x1 x2 (ix2 n k) = wdeq x1 x2 n k := by
  rw [val_main_v2_apply, val_main_v0_apply, val_main_v1_apply, sidx_eq]
  rfl

/-- THE REFERENCE'S RESULT is the product plus bias. -/
theorem result_eq (x0 : (⟨S4x2048x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    val_main_v6 (F := Ideal) x0 x1 x2 x3 = out3 x0 x1 x2 x3 := by
  funext i
  rw [val_main_v6_apply, val_main_v3_apply, val_main_v5_apply, val_main_v4_apply, bidx_eq]
  show (∑ k : Fin 4096, x0 (lidx_main_v3 i k) * val_main_v2 (F := Ideal) x1 x2 (ridx_main_v3 i k)) + x3 (ix1 (i 2))
    = (∑ k : Fin 4096, x0 (ix3 (i 0) (i 1) k) * wdeq x1 x2 (i 2) k) + x3 (ix1 (i 2))
  refine congrArg (· + x3 (ix1 (i 2))) (Finset.sum_congr rfl fun k _ => ?_)
  exact congrArg₂ (· * ·) (congrArg x0 (lidx_eq i k))
    ((congrArg (val_main_v2 (F := Ideal) x1 x2) (ridx_eq i k)).trans (deq_apply x1 x2 (i 2) k))

end Cert.ReferenceIdeal.RefValue

end
-- ==== Proof.lean ====
/-
  The certificate of a fused dequantize-and-matmul kernel against its plain reference, over the extended reals.

  Both programs compute, at batch `b`, sequence position `s`, output feature `n`,
  `Σ_k x[b, s, k] · (wq[n, k] · ws[n, 0]) + bias[n]`: the integer weight `wq[n, k]` read signed and scaled by its row's
  scale, contracted with the activations over the 4096 input features, plus the bias.
  The reference does so in one contraction on the three-axis arrays. The kernel flattens batch and sequence position to
  8192 rows, tiles rows, output features and input features into 8 × 4 × 8 blocks of 1024 × 1024 × 512, and for each
  (row block, feature block) pair resets an accumulator at the first stretch of input features, adds one stretch's block
  product per grid point, and at the last stretch writes accumulator plus bias to the output block. The eight stretch
  sums added up are the whole sum because addition of extended reals is commutative and associative; no finiteness of
  the inputs is needed, and changes of float format are the identity on the extended reals. The idealization pass
  rewrote nothing, so the kernel's idealization is the kernel's own text read over the extended reals.
  The three frame claims are the generated frames and the reference's generated run.
-/
import proofs.«151990_j48421461295490_1_alg».proof.Defs
import proofs.«151990_j48421461295490_1_alg».proof.Proof.Gen.Kernel
import proofs.«151990_j48421461295490_1_alg».proof.Proof.Gen.Kernel.Skeleton
import proofs.«151990_j48421461295490_1_alg».proof.Proof.Gen.Kernel.Launch
import proofs.«151990_j48421461295490_1_alg».proof.Proof.Gen.Kernel.Points
import proofs.«151990_j48421461295490_1_alg».proof.Proof.Gen.Kernel.Frame
import proofs.«151990_j48421461295490_1_alg».proof.Proof.Gen.KernelIdeal
import proofs.«151990_j48421461295490_1_alg».proof.Proof.Gen.KernelIdeal.Skeleton
import proofs.«151990_j48421461295490_1_alg».proof.Proof.Gen.KernelIdeal.Launch
import proofs.«151990_j48421461295490_1_alg».proof.Proof.Gen.KernelIdeal.Points
import proofs.«151990_j48421461295490_1_alg».proof.Proof.Gen.KernelIdeal.Frame
import proofs.«151990_j48421461295490_1_alg».proof.Proof.Gen.ReferenceIdeal
import proofs.«151990_j48421461295490_1_alg».proof.Proof.Gen.ReferenceIdeal.Run
import proofs.«151990_j48421461295490_1_alg».proof.Proof.Gen.ReferenceIdeal.Read
import proofs.«151990_j48421461295490_1_alg».proof.Proof.Gen.Pre_finite_inputs
import proofs.«151990_j48421461295490_1_alg».proof.Proof.KernelRun
import proofs.«151990_j48421461295490_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the product plus bias of arguments that agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
